-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S64x4096 : Shape := ⟨2, ![64, 4096]⟩
abbrev S1000000 : Shape := ⟨1, ![1000000]⟩
abbrev S2x1000000 : Shape := ⟨2, ![2, 1000000]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : FVec F S1000000 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x64 .f32) (main_arg3 : FVec F S64x4096 .f32) (main_arg4 : FVec F S1000000 .f32) (main_arg5 : IVec S2x1000000 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S64x4096 : Shape := ⟨2, ![64, 4096]⟩
abbrev S1000000 : Shape := ⟨1, ![1000000]⟩
abbrev S2x1000000 : Shape := ⟨2, ![2, 1000000]⟩
abbrev S1x1000000 : Shape := ⟨2, ![1, 1000000]⟩
abbrev S_ : Shape := ⟨0, ![]⟩
abbrev S1000000x1 : Shape := ⟨2, ![1000000, 1]⟩
abbrev S1000000x2 : Shape := ⟨2, ![1000000, 2]⟩
abbrev S256x4096 : Shape := ⟨2, ![256, 4096]⟩
abbrev S256x64 : Shape := ⟨2, ![256, 64]⟩
abbrev S8192x4096 : Shape := ⟨2, ![8192, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 36
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S1000000, .f32⟩
  | .hbm, ⟨5, _⟩ => ⟨S2x1000000, .i32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S4096x4096, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x1, .i32⟩
  | .hbm, ⟨28, _⟩ => ⟨S1000000x2, .i32⟩
  | .hbm, ⟨29, _⟩ => ⟨S4096x4096, .f32⟩
  | .hbm, ⟨30, _⟩ => ⟨S4096x4096, .f32⟩
  | .hbm, ⟨31, _⟩ => ⟨S4096x4096, .bf16⟩
  | .hbm, ⟨32, _⟩ => ⟨S8192x4096, .f32⟩
  | .hbm, ⟨33, _⟩ => ⟨S8192x4096, .bf16⟩
  | .hbm, ⟨34, _⟩ => ⟨S8192x4096, .f32⟩
  | .hbm, ⟨35, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x64, .f32⟩
  | .local _ .vmem, ⟨3, _⟩ => ⟨S256x64, .f32⟩
  | .local _ .vmem, ⟨4, _⟩ => ⟨S64x4096, .f32⟩
  | .local _ .vmem, ⟨5, _⟩ => ⟨S256x4096, .bf16⟩
  | .local _ .vmem, ⟨6, _⟩ => ⟨S256x4096, .bf16⟩
  | .local _ .vmem, ⟨7, _⟩ => ⟨S1024x4096, .bf16⟩
  | .local _ .vmem, ⟨8, _⟩ => ⟨S1024x4096, .bf16⟩
  | .local _ .vmem, ⟨9, _⟩ => ⟨S512x4096, .bf16⟩
  | .local _ .vmem, ⟨10, _⟩ => ⟨S512x4096, .bf16⟩
  | .local _ .vmem, ⟨11, _⟩ => ⟨S1024x512, .f32⟩
  | .local _ .vmem, ⟨12, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S4096x4096 : S_.BroadcastsInDim S4096x4096 (![] : Fin 0 → Fin S4096x4096.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  scatter_S4096x4096_S1000000x2_S1000000_n_01_01_1_wf : ScatterDims.WF S4096x4096 S1000000x2 S1000000 [] [0, 1] [0, 1] 1
  dot_S256x64_S64x4096_S256x4096_1_0_0_1_n_n_wf : DotDims.WF S256x64 S64x4096 S256x4096 [1] [0] [0] [1] [] []
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x4096.size a
  hwx1_2 : ∀ i : grid1.Coords, EltTy.bits .f32 = 32 ∨ (Rect.block (s := S8192x4096) S1024x512.size (cc1_transform_2 i) (hinb1_2 i)).WholeWords (EltTy.packing .f32)

variable [Facts₀]

def scatter_S4096x4096_S1000000x2_S1000000_n_01_01_1 : ScatterDims S4096x4096 S1000000x2 S1000000 where
  updateWindowDims := []
  insertedWindowDims := [0, 1]
  scatterDimsToOperandDims := [0, 1]
  indexVectorDim := 1
  wf := scatter_S4096x4096_S1000000x2_S1000000_n_01_01_1_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v19) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S64x4096 : Shape := ⟨2, ![64, 4096]⟩
abbrev S1000000 : Shape := ⟨1, ![1000000]⟩
abbrev S2x1000000 : Shape := ⟨2, ![2, 1000000]⟩
abbrev S4x2048x64 : Shape := ⟨3, ![4, 2048, 64]⟩
abbrev S_ : Shape := ⟨0, ![]⟩
abbrev S1x1000000 : Shape := ⟨2, ![1, 1000000]⟩
abbrev S1000000x1 : Shape := ⟨2, ![1000000, 1]⟩
abbrev S1000000x2 : Shape := ⟨2, ![1000000, 2]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S1000000, .f32⟩
  | .hbm, ⟨5, _⟩ => ⟨S2x1000000, .i32⟩
  | .hbm, ⟨6, _⟩ => ⟨S4x2048x4096, .f32⟩
  | .hbm, ⟨7, _⟩ => ⟨S4x2048x64, .f32⟩
  | .hbm, ⟨8, _⟩ => ⟨S4x2048x4096, .f32⟩
  | .hbm, ⟨9, _⟩ => ⟨S_, .f32⟩
  | .hbm, ⟨10, _⟩ => ⟨S4096x4096, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x1, .i32⟩
  | .hbm, ⟨31, _⟩ => ⟨S1000000x2, .i32⟩
  | .hbm, ⟨32, _⟩ => ⟨S4096x4096, .f32⟩
  | .hbm, ⟨33, _⟩ => ⟨S4x2048x4096, .f32⟩
  | .hbm, ⟨34, _⟩ => ⟨S4x2048x4096, .f32⟩
  | .hbm, ⟨35, _⟩ => ⟨S_, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []
  scatter_S4096x4096_S1000000x2_S1000000_n_01_01_1_wf : ScatterDims.WF S4096x4096 S1000000x2 S1000000 [] [0, 1] [0, 1] 1

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf
def scatter_S4096x4096_S1000000x2_S1000000_n_01_01_1 : ScatterDims S4096x4096 S1000000x2 S1000000 where
  updateWindowDims := []
  insertedWindowDims := [0, 1]
  scatterDimsToOperandDims := [0, 1]
  indexVectorDim := 1
  wf := scatter_S4096x4096_S1000000x2_S1000000_n_01_01_1_wf

class Facts : Prop extends Facts₀ where

variable [Facts]
-- ==== Proof.Matmuls.lean ====
/-
  The two kernel bodies' stored values, read at an entry, at the exact-real instance.
-/
import proofs.«117026_j83159156785478_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Blocks

open Idealize.ShloMosaic Idealize.ShloMosaic.ValueIdx Cert.KernelIdeal Cert.KernelIdeal.Gen

/-! ## The first product: left axis 1 contracted with right axis 0

The left operand is read at (row of the result, contraction position), the right operand at
(contraction position, column of the result). -/

private theorem lhsA_0 (i : S256x4096.Idx) (k : dot_S256x64_S64x4096_S256x4096_1_0_0_1_n_n.contr.Idx) :
    (dot_S256x64_S64x4096_S256x4096_1_0_0_1_n_n.lhsIdx i k 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
private theorem lhsA_1 (i : S256x4096.Idx) (k : dot_S256x64_S64x4096_S256x4096_1_0_0_1_n_n.contr.Idx) :
    (dot_S256x64_S64x4096_S256x4096_1_0_0_1_n_n.lhsIdx i k 1).val = (k ⟨0, by decide⟩).val :=
  dot_S256x64_S64x4096_S256x4096_1_0_0_1_n_n.lhsIdx_val_of_single rfl i k
private theorem rhsA_0 (i : S256x4096.Idx) (k : dot_S256x64_S64x4096_S256x4096_1_0_0_1_n_n.contr.Idx) :
    (dot_S256x64_S64x4096_S256x4096_1_0_0_1_n_n.rhsIdx i k 0).val = (k ⟨0, by decide⟩).val :=
  dot_S256x64_S64x4096_S256x4096_1_0_0_1_n_n.rhsIdx_val_of_single rfl i k
private theorem rhsA_1 (i : S256x4096.Idx) (k : dot_S256x64_S64x4096_S256x4096_1_0_0_1_n_n.contr.Idx) :
    (dot_S256x64_S64x4096_S256x4096_1_0_0_1_n_n.rhsIdx i k 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- The first product from a zero accumulator, at an entry: the sum over the 64 contraction positions. -/
private theorem dotA_apply {φ₁ φ₂ : FTy} (x : FVec Ideal S256x64 φ₁) (y : FVec Ideal S64x4096 φ₂) (p : Fin 256) (q : Fin 4096) :
    matmul (F := Ideal) dot_S256x64_S64x4096_S256x4096_1_0_0_1_n_n none x y (constant (F := Ideal) S256x4096 .f32 0x00000000#32) (ix2 p q)
      = ∑ r : Fin 64, x (ix2 p r) * y (ix2 r q) := by
  refine (Ideal.matmul_constant_zero_apply dot_S256x64_S64x4096_S256x4096_1_0_0_1_n_n none x y (ix2 p q)).trans ?_
  rw [← Equiv.sum_comp (ValueIdx.contrEquiv1 dot_S256x64_S64x4096_S256x4096_1_0_0_1_n_n 64 rfl rfl).symm]
  refine Finset.sum_congr rfl fun r _ => ?_
  have hr := ValueIdx.contrEquiv1_symm_val dot_S256x64_S64x4096_S256x4096_1_0_0_1_n_n 64 rfl rfl r
  have el : dot_S256x64_S64x4096_S256x4096_1_0_0_1_n_n.lhsIdx (ix2 p q) ((ValueIdx.contrEquiv1 dot_S256x64_S64x4096_S256x4096_1_0_0_1_n_n 64 rfl rfl).symm r) = ix2 p r := funext fun a => Fin.ext (by
    match a with
    | ⟨0, _⟩ => exact lhsA_0 _ _
    | ⟨1, _⟩ => exact (lhsA_1 _ _).trans hr)
  have er : dot_S256x64_S64x4096_S256x4096_1_0_0_1_n_n.rhsIdx (ix2 p q) ((ValueIdx.contrEquiv1 dot_S256x64_S64x4096_S256x4096_1_0_0_1_n_n 64 rfl rfl).symm r) = ix2 r q := funext fun a => Fin.ext (by
    match a with
    | ⟨0, _⟩ => exact (rhsA_0 _ _).trans hr
    | ⟨1, _⟩ => exact rhsA_1 _ _)
  rw [el, er]

/-- The weight-combining body stores, at row p and column q of its block, the entry of the block of W + S there plus
    the product of row p of the block of A with column q of B. -/
theorem combine_apply (a : Vec Ideal S256x64 .f32) (b : Vec Ideal S64x4096 .f32) (w : Vec Ideal S256x4096 .f32)
    (p : Fin 256) (q : Fin 4096) :
    k0_pay1 (F := Ideal) a b w (ix2 p q) = w (ix2 p q) + ∑ r : Fin 64, a (ix2 p r) * b (ix2 r q) := by
  unfold k0_pay1
  refine (truncf_apply (ψ := .bf16) _ bitsLt_bf16_f32 (ix2 p q)).trans ?_
  refine (addf_apply _ _ (ix2 p q)).trans ?_
  refine (congrArg₂ (· + ·) (congrFun (shapeCast_self w shapeCasts_S256x4096_S256x4096) (ix2 p q)) (dotA_apply _ _ p q)).trans ?_
  rfl

/-! ## The second product: both operands contracted along their second axis

The left operand is read at (row of the result, contraction position), the right operand at
(column of the result, contraction position). -/

private theorem lhsB_0 (i : S1024x512.Idx) (k : dot_S1024x4096_S512x4096_S1024x512_1_1_0_0_n_n.contr.Idx) :
    (dot_S1024x4096_S512x4096_S1024x512_1_1_0_0_n_n.lhsIdx i k 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
private theorem lhsB_1 (i : S1024x512.Idx) (k : dot_S1024x4096_S512x4096_S1024x512_1_1_0_0_n_n.contr.Idx) :
    (dot_S1024x4096_S512x4096_S1024x512_1_1_0_0_n_n.lhsIdx i k 1).val = (k ⟨0, by decide⟩).val :=
  dot_S1024x4096_S512x4096_S1024x512_1_1_0_0_n_n.lhsIdx_val_of_single rfl i k
private theorem rhsB_0 (i : S1024x512.Idx) (k : dot_S1024x4096_S512x4096_S1024x512_1_1_0_0_n_n.contr.Idx) :
    (dot_S1024x4096_S512x4096_S1024x512_1_1_0_0_n_n.rhsIdx i k 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
private theorem rhsB_1 (i : S1024x512.Idx) (k : dot_S1024x4096_S512x4096_S1024x512_1_1_0_0_n_n.contr.Idx) :
    (dot_S1024x4096_S512x4096_S1024x512_1_1_0_0_n_n.rhsIdx i k 1).val = (k ⟨0, by decide⟩).val :=
  dot_S1024x4096_S512x4096_S1024x512_1_1_0_0_n_n.rhsIdx_val_of_single rfl i k

/-- The second product from a zero accumulator, at an entry: the sum over the 4096 contraction positions. -/
private theorem dotB_apply {φ₁ φ₂ : FTy} (x : FVec Ideal S1024x4096 φ₁) (y : FVec Ideal S512x4096 φ₂) (p : Fin 1024) (q : Fin 512) :
    matmul (F := Ideal) dot_S1024x4096_S512x4096_S1024x512_1_1_0_0_n_n none x y (constant (F := Ideal) S1024x512 .f32 0x00000000#32) (ix2 p q)
      = ∑ d : Fin 4096, x (ix2 p d) * y (ix2 q d) := by
  refine (Ideal.matmul_constant_zero_apply dot_S1024x4096_S512x4096_S1024x512_1_1_0_0_n_n none x y (ix2 p q)).trans ?_
  rw [← Equiv.sum_comp (ValueIdx.contrEquiv1 dot_S1024x4096_S512x4096_S1024x512_1_1_0_0_n_n 4096 rfl rfl).symm]
  refine Finset.sum_congr rfl fun r _ => ?_
  have hr := ValueIdx.contrEquiv1_symm_val dot_S1024x4096_S512x4096_S1024x512_1_1_0_0_n_n 4096 rfl rfl r
  have el : dot_S1024x4096_S512x4096_S1024x512_1_1_0_0_n_n.lhsIdx (ix2 p q) ((ValueIdx.contrEquiv1 dot_S1024x4096_S512x4096_S1024x512_1_1_0_0_n_n 4096 rfl rfl).symm r) = ix2 p r := funext fun a => Fin.ext (by
    match a with
    | ⟨0, _⟩ => exact lhsB_0 _ _
    | ⟨1, _⟩ => exact (lhsB_1 _ _).trans hr)
  have er : dot_S1024x4096_S512x4096_S1024x512_1_1_0_0_n_n.rhsIdx (ix2 p q) ((ValueIdx.contrEquiv1 dot_S1024x4096_S512x4096_S1024x512_1_1_0_0_n_n 4096 rfl rfl).symm r) = ix2 q r := funext fun a => Fin.ext (by
    match a with
    | ⟨0, _⟩ => exact rhsB_0 _ _
    | ⟨1, _⟩ => exact (rhsB_1 _ _).trans hr)
  rw [el, er]

/-- The product body stores, at row p and column q of its block, the product of row p of the block of x with ROW q of
    the block of the combined weight (both operands contracted along their second axis). -/
theorem rowsByRows_apply (x : Vec Ideal S1024x4096 .bf16) (w : Vec Ideal S512x4096 .bf16) (p : Fin 1024) (q : Fin 512) :
    k1_pay1 (F := Ideal) x w (ix2 p q) = ∑ d : Fin 4096, x (ix2 p d) * w (ix2 q d) := by
  unfold k1_pay1
  refine (dotB_apply _ _ p q).trans ?_
  rw [shapeCast_self x shapeCasts_S1024x4096_S1024x4096, shapeCast_self w shapeCasts_S512x4096_S512x4096]

end Cert.KernelIdeal.Blocks

end
-- ==== Proof.CombinedArray.lean ====
/-
  The weight-combining region's output array after its run, as one function of the arrays the region finds.
-/
import proofs.«117026_j83159156785478_1_alg».proof.Proof.Gen.KernelIdeal.Frame
import proofs.«117026_j83159156785478_1_alg».proof.Proof.Matmuls

set_option maxRecDepth 16384

noncomputable section

open scoped BigOperators

namespace Cert.KernelIdeal.Blocks

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The arrays the region finds, each at its literal type: W + S, A, B. -/
abbrev arrWS (c : Dev nD) : S4096x4096.Idx → EReal := V c main_v19
abbrev arrA (c : Dev nD) : S4096x64.Idx → EReal := V c main_arg2
abbrev arrB (c : Dev nD) : S64x4096.Idx → EReal := V c main_arg3

/-- The combined weight: at (o, d), the entry of W + S plus the product of row o of A with column d of B. -/
def combinedFn (c : Dev nD) : S4096x4096.Idx → EReal :=
  fun i => arrWS V c i + ∑ r : Fin 64, arrA V c (ix2 (i 0) r) * arrB V c (ix2 r (i 1))

/-- The zero offset of a whole-buffer access, as a constant function. -/
private theorem zero_off : (![0, 0] : Fin 2 → Nat) = fun _ => 0 := funext fun a => by fin_cases a <;> rfl

/-- The stored value at an entry of the block, the entry given by its index rather than its two coordinates. -/
private theorem stored_apply (a : Vec Ideal S256x64 .f32) (b : Vec Ideal S64x4096 .f32) (w : Vec Ideal S256x4096 .f32)
    (j : S256x4096.Idx) :
    k0_pay1 (F := Ideal) a b w j = w j + ∑ r : Fin 64, a (ix2 (j 0) r) * b (ix2 r (j 1)) := by
  obtain ⟨p, q, rfl⟩ : ∃ p q, j = ix2 p q := ⟨j 0, j 1, eq_ix2 j⟩
  exact combine_apply a b w p q

/-- The windows' block indices at point t: the three row-blocked windows sit at row block t, every column block and
    the whole-array window at 0. -/
private theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three input blocks at point t, each at its literal type. -/
private abbrev blkW (c : Dev nD) (t : Fin cfg0.N) : Vec Ideal S256x4096 .f32 := iblk0 V c 0 t
private abbrev blkA (c : Dev nD) (t : Fin cfg0.N) : Vec Ideal S256x64 .f32 := iblk0 V c 1 t
private abbrev blkB (c : Dev nD) (t : Fin cfg0.N) : Vec Ideal S64x4096 .f32 := iblk0 V c 2 t

/-- Block t of W + S at an entry is the array read where the output's block t puts that entry. -/
private theorem blkW_apply (c : Dev nD) (t : Fin cfg0.N) (j : S256x4096.Idx) :
    blkW V c t j = arrWS V c (((cfg0.win 3).blk t).view.emb j) := by
  obtain ⟨e00, e01, -, -, -, -, e30, e31⟩ := block_indices t
  show V c main_v19 (((cfg0.win 0).blk t).view.emb j) = V c main_v19 (((cfg0.win 3).blk t).view.emb j)
  refine congrArg (V c main_v19) ?_
  funext a; apply Fin.ext
  match a with
  | ⟨0, _⟩ => show win0_0.index t (0 : Fin 2) * 256 + 1 * (j 0).val = win0_3.index t (0 : Fin 2) * 256 + 1 * (j 0).val; omega
  | ⟨1, _⟩ => show win0_0.index t (1 : Fin 2) * 4096 + 1 * (j 1).val = win0_3.index t (1 : Fin 2) * 4096 + 1 * (j 1).val; omega

/-- Block t of A at row p and column r is A at the array row of the output's entry and column r. -/
private theorem blkA_apply (c : Dev nD) (t : Fin cfg0.N) (j : S256x4096.Idx) (r : Fin 64) :
    blkA V c t (ix2 (j 0) r) = arrA V c (ix2 ((((cfg0.win 3).blk t).view.emb j) 0) r) := by
  obtain ⟨-, -, e10, e11, -, -, e30, e31⟩ := block_indices t
  show V c main_arg2 (((cfg0.win 1).blk t).view.emb (ix2 (j 0) r)) = V c main_arg2 (ix2 ((((cfg0.win 3).blk t).view.emb j) 0) r)
  refine congrArg (V c main_arg2) ?_
  funext a; apply Fin.ext
  match a with
  | ⟨0, _⟩ => show win0_1.index t (0 : Fin 2) * 256 + 1 * (j 0).val = win0_3.index t (0 : Fin 2) * 256 + 1 * (j 0).val; omega
  | ⟨1, _⟩ => show win0_1.index t (1 : Fin 2) * 64 + 1 * r.val = r.val; omega

/-- The one block of B at row r and column q is B at row r and the array column of the output's entry. -/
private theorem blkB_apply (c : Dev nD) (t : Fin cfg0.N) (j : S256x4096.Idx) (r : Fin 64) :
    blkB V c t (ix2 r (j 1)) = arrB V c (ix2 r ((((cfg0.win 3).blk t).view.emb j) 1)) := by
  obtain ⟨-, -, -, -, e20, e21, e30, e31⟩ := block_indices t
  show V c main_arg3 (((cfg0.win 2).blk t).view.emb (ix2 r (j 1))) = V c main_arg3 (ix2 r ((((cfg0.win 3).blk t).view.emb j) 1))
  refine congrArg (V c main_arg3) ?_
  funext a; apply Fin.ext
  match a with
  | ⟨0, _⟩ => show win0_2.index t (0 : Fin 2) * 64 + 1 * r.val = r.val; omega
  | ⟨1, _⟩ => show win0_2.index t (1 : Fin 2) * 4096 + 1 * (j 1).val = win0_3.index t (1 : Fin 2) * 4096 + 1 * (j 1).val; omega

/-- What point t writes back is block t of the combined weight. -/
private theorem flushed_eq (c : Dev nD) (t : Fin cfg0.N) :
    (dat0 (F := Ideal) V c).flushed 3 t = ((cfg0.win 3).blk t).view.read (Elt Ideal) (combinedFn V c) := by
  show (cfg0.win 3).cut (grid0.coords t) ((dat0 V c).after 3 t) = _
  rw [after0_3]
  unfold out0_3
  rw [View.canon_unit_zero zero_off]
  simp only [View.ld_unit_zero (S := S256x64) zero_off, View.ld_unit_zero (S := S64x4096) zero_off,
    View.ld_unit_zero (S := S256x4096) zero_off]
  funext j
  show k0_pay1 (F := Ideal) (blkA V c t) (blkB V c t) (blkW V c t) j = combinedFn V c (((cfg0.win 3).blk t).view.emb j)
  refine (stored_apply _ _ _ j).trans ?_
  rw [blkW_apply]
  show _ = arrWS V c (((cfg0.win 3).blk t).view.emb j)
    + ∑ r : Fin 64, arrA V c (ix2 ((((cfg0.win 3).blk t).view.emb j) 0) r) * arrB V c (ix2 r ((((cfg0.win 3).blk t).view.emb j) 1))
  congr 1
  refine Finset.sum_congr rfl fun r _ => ?_
  rw [blkA_apply, blkB_apply]

/-- An index of the output array is in point t's block iff each coordinate is in the block's range on its axis. -/
private theorem mem_block (t : Fin cfg0.N) (i : S4096x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v20).slice (win0_3.rect t)).set ↔ _
  rw [View.set_slice_whole, Rect.mem_set_unit]
  exact Iff.rfl

/-- Every index of the output array is in the block of a point that writes back: row r is in the block of point r / 256,
    and each block holds all the columns. -/
private theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨-, -, -, -, -, -, e30, e31⟩ := block_indices t
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- After the weight-combining region its output array is the combined weight of the arrays it found. -/
theorem combined_array (c : Dev nD) : (dat0 (F := Ideal) V c).arrAt 3 cfg0.N = combinedFn V c := by
  exact (dat0 V c).arrAt_eq_of_cover 3 (combinedFn V c) (fun t _ => flushed_eq V c t) covered

end Cert.KernelIdeal.Blocks

end
-- ==== Proof.ProductArray.lean ====
/-
  The product region's output array after its run, as one function of the arrays the region finds.
-/
import proofs.«117026_j83159156785478_1_alg».proof.Proof.Gen.KernelIdeal.Frame
import proofs.«117026_j83159156785478_1_alg».proof.Proof.Matmuls

set_option maxRecDepth 16384

noncomputable section

open scoped BigOperators

namespace Cert.KernelIdeal.Blocks

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The arrays the region finds, each at its literal type: the flattened x and the combined weight. -/
abbrev arrX (c : Dev nD) : S8192x4096.Idx → EReal := V c main_v22
abbrev arrWt (c : Dev nD) : S4096x4096.Idx → EReal := V c main_v20

/-- The product: at (t, o), row t of the flattened x times row o of the combined weight. -/
def productFn (c : Dev nD) : S8192x4096.Idx → EReal :=
  fun i => ∑ d : Fin 4096, arrX V c (ix2 (i 0) d) * arrWt V c (ix2 (i 1) d)

/-- The zero offsets of a whole-block access. -/
private theorem zeroOffsets : (![0, 0] : Fin 2 → Nat) = fun _ => 0 := funext fun a => by fin_cases a <;> rfl

/-- The product body's stored value at any entry of its block: row (j 0) of the block of x times row (j 1) of the block
    of the combined weight. -/
private theorem block_entry (x : Vec Ideal S1024x4096 .bf16) (w : Vec Ideal S512x4096 .bf16) (j : S1024x512.Idx) :
    k1_pay1 (F := Ideal) x w j = ∑ d : Fin 4096, x (ix2 (j 0) d) * w (ix2 (j 1) d) := by
  obtain ⟨p, q, rfl⟩ : ∃ p q, j = ix2 p q := ⟨j 0, j 1, eq_ix2 j⟩
  exact rowsByRows_apply x w p q

/-- The three index maps over the grid: the block of x sits at the output block's row index and spans every column;
    the block of the weight sits at the output block's COLUMN index (as a row index) and spans every column; the
    output's block indices stay below 8 on both axes. -/
private theorem blockIndex_facts : ∀ t : Fin cfg1.N,
    win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 7
    ∧ win1_2.index t (1 : Fin 2) ≤ 7 :=
  (by decide +kernel : ∀ t : Fin grid1.N, _)

/-- Every one of the 8 × 8 output blocks is some grid point's. -/
private theorem blockIndex_onto : ∀ (q0 : Fin 8) (q1 : Fin 8), ∃ t : Fin cfg1.N, win1_2.index t = ![q0.val, q1.val] :=
  (by decide +kernel : ∀ (q0 : Fin 8) (q1 : Fin 8), ∃ t : Fin grid1.N, win1_2.index t = ![q0.val, q1.val])

/-- The input blocks at a point, each at its literal type. -/
private abbrev blkX (c : Dev nD) (t : Fin cfg1.N) : Vec Ideal S1024x4096 .bf16 := iblk1 V c 0 t
private abbrev blkWt (c : Dev nD) (t : Fin cfg1.N) : Vec Ideal S512x4096 .bf16 := iblk1 V c 1 t

/-- What a grid point writes back is its block of the product. -/
private theorem flushed_product (c : Dev nD) (t : Fin cfg1.N) :
    (dat1 (F := Ideal) V c).flushed 2 t = ((cfg1.win 2).blk t).view.read (Elt Ideal) (productFn V c) := by
  show (cfg1.win 2).cut (grid1.coords t) ((dat1 (F := Ideal) V c).after 2 t) = _
  rw [after1_2]
  unfold out1_2
  rw [View.canon_unit_zero zeroOffsets]
  simp only [View.ld_unit_zero (S := S1024x4096) zeroOffsets, View.ld_unit_zero (S := S512x4096) zeroOffsets]
  obtain ⟨e0, e1, e2, e3, e4, e5⟩ := blockIndex_facts t
  refine funext fun (j : S1024x512.Idx) => ?_
  show k1_pay1 (F := Ideal) (blkX V c t) (blkWt V c t) j = productFn V c (((cfg1.win 2).blk t).view.emb j)
  rw [block_entry]
  show ∑ d : Fin 4096, blkX V c t (ix2 (j 0) d) * blkWt V c t (ix2 (j 1) d)
     = ∑ d : Fin 4096, arrX V c (ix2 ((((cfg1.win 2).blk t).view.emb j) 0) d) * arrWt V c (ix2 ((((cfg1.win 2).blk t).view.emb j) 1) d)
  refine Finset.sum_congr rfl fun d _ => ?_
  have hx : blkX V c t (ix2 (j 0) d) = arrX V c (ix2 ((((cfg1.win 2).blk t).view.emb j) 0) d) := by
    show V c main_v22 (((cfg1.win 0).blk t).view.emb (ix2 (j 0) d)) = V c main_v22 _
    congr 1
    funext a; apply Fin.ext
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 4096 + 1 * d.val = d.val; omega
  have hw : blkWt V c t (ix2 (j 1) d) = arrWt V c (ix2 ((((cfg1.win 2).blk t).view.emb j) 1) d) := by
    show V c main_v20 (((cfg1.win 1).blk t).view.emb (ix2 (j 1) d)) = V c main_v20 _
    congr 1
    funext a; apply Fin.ext
    match a with
    | ⟨0, _⟩ => show win1_1.index t (0 : Fin 2) * 512 + 1 * (j 1).val = win1_2.index t (1 : Fin 2) * 512 + 1 * (j 1).val; omega
    | ⟨1, _⟩ => show win1_1.index t (1 : Fin 2) * 4096 + 1 * d.val = d.val; omega
  rw [hx, hw]

/-- An entry of the output array is in a point's block iff each coordinate is in the block's range on its axis. -/
private theorem mem_outBlock (t : Fin cfg1.N) (i : S8192x4096.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole main_v23).slice (win1_2.rect t)).set ↔ _
  rw [View.set_slice_whole, Rect.mem_set_unit]
  exact Iff.rfl

/-- The output blocks cover the array: entry (r, o) lies in the block with index (r / 1024, o / 512). -/
private theorem outBlocks_cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := blockIndex_onto ⟨(i 0).val / 1024, by omega⟩ ⟨(i 1).val / 512, by omega⟩
  have q0 : win1_2.index t (0 : Fin 2) = (i 0).val / 1024 := congrFun ht 0
  have q1 : win1_2.index t (1 : Fin 2) = (i 1).val / 512 := congrFun ht 1
  refine ⟨t, flush1_2 t, ?_⟩
  rw [mem_outBlock]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 512 ≤ (i 1).val ∧ (i 1).val < win1_2.index t (1 : Fin 2) * 512 + 512; omega

/-- After the product region its output array is the product of the arrays it found. -/
theorem product_array (c : Dev nD) : (dat1 (F := Ideal) V c).arrAt 2 cfg1.N = productFn V c :=
  (dat1 (F := Ideal) V c).arrAt_eq_of_cover 2 (productFn V c) (fun t _ => flushed_product V c t) outBlocks_cover

end Cert.KernelIdeal.Blocks

end
-- ==== Proof.HostReads.lean ====
/-
  The kernel program's result array read through the host operations around its two regions.

  Before the first region the host builds S, the dense accumulation of the sparse entries, and W + S; the first region
  leaves the combined weight W + S + A·B; the host flattens x to [8192, 4096]; the second region leaves the product of
  the flattened x with the combined weight's rows; the host reshapes it to [4, 2048, 4096].  Read at (b, s, o) the
  result is  Σ_d x(b,s,d) · ((W(o,d) + S(o,d)) + Σ_r A(o,r) · B(r,d)).
-/
import proofs.«117026_j83159156785478_1_alg».proof.Proof.Gen.KernelIdeal.Frame
import proofs.«117026_j83159156785478_1_alg».proof.Proof.Gen.ReferenceIdeal.Read
import proofs.«117026_j83159156785478_1_alg».proof.Proof.CombinedArray
import proofs.«117026_j83159156785478_1_alg».proof.Proof.ProductArray
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.HostReads

open Idealize.ShloMosaic Idealize.ShloMosaic.TcCoe Idealize.ShloMosaic.ValueIdx Idealize.SL.Sem Idealize.ShloMosaic.StableHlo
open Cert.KernelIdeal Cert.KernelIdeal.Gen Cert.KernelIdeal.Blocks

variable (m : (ℓ : Loc nD τ sig) → Buf (Elt Ideal) ℓ) (ρ : Dev nD → PrngReg)

/-- The argument arrays, each at its literal type. -/
abbrev aX (c : Dev nD) : S4x2048x4096.Idx → EReal := m ((c : Thread nD τ).loc main_arg0)
abbrev aW (c : Dev nD) : S4096x4096.Idx → EReal := m ((c : Thread nD τ).loc main_arg1)
abbrev aA (c : Dev nD) : S4096x64.Idx → EReal := m ((c : Thread nD τ).loc main_arg2)
abbrev aB (c : Dev nD) : S64x4096.Idx → EReal := m ((c : Thread nD τ).loc main_arg3)
/-- The dense accumulation S of the sparse entries: the same host operations in both programs. -/
abbrev aS (c : Dev nD) : S4096x4096.Idx → EReal :=
  Cert.ReferenceIdeal.Read.val_main_v21 (F := Ideal) (m ((c : Thread nD τ).loc main_arg4)) (m ((c : Thread nD τ).loc main_arg5))

/-! ## The first region's entry -/

set_option maxHeartbeats 2000000 in
theorem entry_WS' (c : Dev nD) : arrWS (V1 m ρ) c = (addf (aW m c : FVec Ideal S4096x4096 .f32) (aS m c : FVec Ideal S4096x4096 .f32) : FVec Ideal S4096x4096 .f32) := by
  show StableHlo.after hostOps0 (W0 m ρ c) (Proc.devRef .tc main_v19) = _
  after_results_simp
  rfl

theorem entry_WS (c : Dev nD) : arrWS (V1 m ρ) c = fun i => aW m c i + aS m c i := entry_WS' m ρ c

theorem entry_A (c : Dev nD) : arrA (V1 m ρ) c = aA m c := by
  show StableHlo.after hostOps0 (W0 m ρ c) (Proc.devRef .tc main_arg2) = _
  after_results_simp

theorem entry_B (c : Dev nD) : arrB (V1 m ρ) c = aB m c := by
  show StableHlo.after hostOps0 (W0 m ρ c) (Proc.devRef .tc main_arg3) = _
  after_results_simp

/-! ## Between the regions -/

/-- x reaches the second stretch of host operations as launched: nothing before it writes it. -/
theorem W2_arg0 (c : Dev nD) : W2 m ρ c (Proc.devRef .tc main_arg0) = aX m c := by
  rw [W2_of_ne m ρ c main_arg0 (by decide)]
  show StableHlo.after hostOps0 (W0 m ρ c) (Proc.devRef .tc main_arg0) = _
  after_results_simp

/-- The second region finds the flattened x: row b·2048 + s of it is row (b, s) of x. -/
theorem entry_X_apply (c : Dev nD) (b : Fin 4) (s : Fin 2048) (d : Fin 4096) (h : b.val * 2048 + s.val < 8192) :
    arrX (V3 m ρ) c (ix2 (⟨b.val * 2048 + s.val, h⟩ : Fin 8192) d) = aX m c (ix3 b s d) := by
  have e : arrX (V3 m ρ) c
      = truncf (F := Ideal) .bf16 (shapeCast S8192x4096 (aX m c : FVec Ideal S4x2048x4096 .f32) shapeCasts_S4x2048x4096_S8192x4096) bitsLt_bf16_f32 := by
    show StableHlo.after hostOps1 (W2 m ρ c) (Proc.devRef .tc main_v22) = _
    after_results
    rw [W2_arg0]
    rfl
  rw [e]
  show shapeCast S8192x4096 (aX m c) shapeCasts_S4x2048x4096_S8192x4096 (ix2 (⟨b.val * 2048 + s.val, h⟩ : Fin 8192) d) = _
  refine shapeCast_apply _ _ _ (ix3 b s d) ?_
  rw [Shape.rowMajor_val_three, Shape.rowMajor_val_two]
  rfl

/-- The second region finds the combined weight the first region left. -/
theorem entry_Wt (c : Dev nD) : arrWt (V3 m ρ) c = combinedFn (V1 m ρ) c := by
  have e : arrWt (V3 m ρ) c = W2 m ρ c (Proc.devRef .tc main_v20) := by
    show StableHlo.after hostOps1 (W2 m ρ c) (Proc.devRef .tc main_v20) = _
    after_results
  rw [e]
  exact (W2_arr m ρ c 3).trans (combined_array (V1 m ρ) c)

/-! ## The result -/

/-- The result array at the last boundary, at its literal type. -/
abbrev aOut (c : Dev nD) : S4x2048x4096.Idx → EReal := W5 m ρ c (Proc.devRef .tc main_v24)

theorem out_eq (c : Dev nD) :
    aOut m ρ c = shapeCast S4x2048x4096 (productFn (V3 m ρ) c) shapeCasts_S8192x4096_S4x2048x4096 := by
  have e : aOut m ρ c
      = shapeCast S4x2048x4096 (W4 m ρ c (Proc.devRef .tc main_v23)) shapeCasts_S8192x4096_S4x2048x4096 := by
    show StableHlo.after hostOps2 (W4 m ρ c) (Proc.devRef .tc main_v24) = _
    after_results
    rfl
  rw [e]
  exact congrArg (fun v => shapeCast S4x2048x4096 v shapeCasts_S8192x4096_S4x2048x4096)
    ((W4_arr m ρ c 2).trans (product_array (V3 m ρ) c))

/-- The result at (b, s, o): row (b, s) of x against row o of the one combined weight W + S + A·B. -/
theorem result_apply (c : Dev nD) (b : Fin 4) (s : Fin 2048) (o : Fin 4096) :
    aOut m ρ c (ix3 b s o)
      = ∑ d : Fin 4096, aX m c (ix3 b s d)
          * ((aW m c (ix2 o d) + aS m c (ix2 o d)) + ∑ r : Fin 64, aA m c (ix2 o r) * aB m c (ix2 r d)) := by
  have h : b.val * 2048 + s.val < 8192 := by have := b.isLt; have := s.isLt; omega
  rw [out_eq]
  rw [shapeCast_apply _ _ (ix3 b s o) (ix2 (⟨b.val * 2048 + s.val, h⟩ : Fin 8192) o) (by
    rw [Shape.rowMajor_val_three, Shape.rowMajor_val_two]; rfl)]
  unfold productFn
  refine Finset.sum_congr rfl fun d _ => ?_
  show arrX (V3 m ρ) c (ix2 (⟨b.val * 2048 + s.val, h⟩ : Fin 8192) d) * arrWt (V3 m ρ) c (ix2 o d) = _
  rw [entry_X_apply, entry_Wt]
  unfold combinedFn
  rw [entry_WS, entry_A, entry_B]

end Cert.KernelIdeal.HostReads

end
-- ==== Proof.Spec.lean ====
/-
  The law that joins the two programs, over the extended reals.

  One output entry of the fused form is  Σ_d x_d · ((w_d + s_d) + Σ_r a_r · b_{r,d}):  a row of the activations against a
  row of the ONE combined weight  W + S + A·B.  The same entry of the three-term form is
  Σ_d x_d · w_d  +  1 · ( Σ_r (Σ_d x_d · b_{r,d}) · a_r  +  Σ_d x_d · s_d ):  the dense term, the low-rank correction
  taken through the rank-r bottleneck, and the sparse term.  They are equal by distributing x_d over the three summands
  and exchanging the two finite sums of the low-rank term.  Distributivity fails on the extended reals at the
  infinities, so the law is stated for entries that are real numbers, and proved on ℝ.
-/
import Mathlib.Data.EReal.Operations
import Idealize.ShloMosaic.PureOps.Ideal
import Idealize.ShloMosaic.PureOps.Contract
import Mathlib.Algebra.BigOperators.Ring.Finset
import Mathlib.Algebra.BigOperators.Group.Finset.Sigma
import Mathlib.Tactic.Ring

noncomputable section

open scoped BigOperators

namespace Cert.Spec

/-- The inclusion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a finite sum of real numbers is a real number. -/
theorem real_zero_add_sum {ι : Type*} (u : Finset ι) (g : ι → EReal) (z : EReal) (hz : z = 0)
    (hg : ∀ j, ∃ t : ℝ, g j = t) : ∃ t : ℝ, z + ∑ j ∈ u, g j = t := by
  choose f hf using hg
  exact ⟨∑ j ∈ u, f j, by rw [hz, zero_add, coe_sum]; exact Finset.sum_congr rfl fun j _ => hf j⟩

/-- An accumulating scatter of real updates into an operand that is zero at an entry leaves a real number there: the
    entry is the operand's plus the finite sum of the updates that land on it, whatever the index words are. -/
theorem scatterAdd_real {s si su : Idealize.ShloMosaic.Shape} {φ : Idealize.ShloMosaic.FTy}
    (d : Idealize.ShloMosaic.ScatterDims s si su) {w : ℕ}
    (x : Idealize.ShloMosaic.FVec Idealize.ShloMosaic.Ideal s φ) (idx : Idealize.ShloMosaic.IVec si w)
    (upd : Idealize.ShloMosaic.FVec Idealize.ShloMosaic.Ideal su φ) (i : s.Idx) (hx : x i = 0)
    (hu : ∀ j, ∃ t : ℝ, upd j = t) : ∃ t : ℝ, Idealize.ShloMosaic.Host.scatterAdd d x idx upd i = t := by
  unfold Idealize.ShloMosaic.Host.scatterAdd
  rw [Idealize.ShloMosaic.Ideal.hostScatterAdd_def]
  unfold Idealize.ShloMosaic.Ideal.hostScatterAdd
  exact real_zero_add_sum _ upd _ hx hu

/-- The law on the reals: distribute, and exchange the two sums of the low-rank term. -/
theorem fused_real {D R : ℕ} (x w s : Fin D → ℝ) (a : Fin R → ℝ) (b : Fin R → Fin D → ℝ) :
    ∑ d, x d * ((w d + s d) + ∑ r, a r * b r d)
      = ∑ d, x d * w d + ((∑ r, (∑ d, x d * b r d) * a r) + ∑ d, x d * s d) := by
  have h1 : ∑ d, x d * ((w d + s d) + ∑ r, a r * b r d)
      = ∑ d, x d * w d + ∑ d, x d * s d + ∑ d, ∑ r, x d * (a r * b r d) := by
    simp only [mul_add, Finset.sum_add_distrib, Finset.mul_sum]
  have h2 : ∑ r, (∑ d, x d * b r d) * a r = ∑ d, ∑ r, x d * (a r * b r d) := by
    rw [Finset.sum_comm]
    refine Finset.sum_congr rfl fun r _ => ?_
    rw [Finset.sum_mul]
    exact Finset.sum_congr rfl fun d _ => by ring
  rw [h1, h2]; ring

/-- The law on the extended reals, for real entries: a row of x against the combined weight's row is the dense term
    plus one times the sum of the low-rank term and the sparse term. -/
theorem fused {D R : ℕ} (x w s : Fin D → EReal) (a : Fin R → EReal) (b : Fin R → Fin D → EReal)
    (hx : ∀ d, ∃ t : ℝ, x d = t) (hw : ∀ d, ∃ t : ℝ, w d = t) (hs : ∀ d, ∃ t : ℝ, s d = t)
    (ha : ∀ r, ∃ t : ℝ, a r = t) (hb : ∀ r d, ∃ t : ℝ, b r d = t) :
    ∑ d, x d * ((w d + s d) + ∑ r, a r * b r d)
      = ∑ d, x d * w d + 1 * ((∑ r, (∑ d, x d * b r d) * a r) + ∑ d, x d * s d) := by
  choose x' hx' using hx
  choose w' hw' using hw
  choose s' hs' using hs
  choose a' ha' using ha
  choose b' hb' using hb
  simp only [hx', hw', hs', ha', hb', one_mul]
  simp only [← EReal.coe_mul, ← EReal.coe_add, ← coe_sum]
  exact congrArg _ (fused_real x' w' s' a' b')

end Cert.Spec

end
-- ==== Proof.RefValue.lean ====
/-
  The reference's result read at an entry (b, s, o):
    Σ_d x(b,s,d) · W(o,d)  +  1 · ( Σ_r (Σ_d x(b,s,d) · B(r,d)) · A(o,r)  +  Σ_d x(b,s,d) · S(o,d) ),
  the dense term plus one times the low-rank correction taken through the rank-64 bottleneck plus the sparse term,
  S the dense accumulation of the sparse entries.  Each contraction is read as a plain sum over the contracted
  coordinate; the operands' indices are spelt by coordinates.
-/
import proofs.«117026_j83159156785478_1_alg».proof.Proof.Gen.ReferenceIdeal.Read
import proofs.«117026_j83159156785478_1_alg».proof.Proof.Spec
import Idealize.ShloMosaic.Lib.IdealHost
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read

variable (b : Fin 4) (s : Fin 2048) (o : Fin 4096)

/-! The operands' indices of the four contractions at the entry (b, s, o), by coordinates. -/

theorem l0 (k : Fin 4096) : lidx_main_v0 (ix3 b s o) k = ix3 b s k := by
  funext a; match a with | ⟨0, _⟩ => rfl | ⟨1, _⟩ => rfl | ⟨2, _⟩ => rfl
theorem r0 (k : Fin 4096) : ridx_main_v0 (ix3 b s o) k = ix2 o k := by
  funext a; match a with | ⟨0, _⟩ => rfl | ⟨1, _⟩ => rfl
theorem l22 (k : Fin 4096) : lidx_main_v22 (ix3 b s o) k = ix3 b s k := by
  funext a; match a with | ⟨0, _⟩ => rfl | ⟨1, _⟩ => rfl | ⟨2, _⟩ => rfl
theorem r22 (k : Fin 4096) : ridx_main_v22 (ix3 b s o) k = ix2 o k := by
  funext a; match a with | ⟨0, _⟩ => rfl | ⟨1, _⟩ => rfl
theorem l2 (r : Fin 64) : lidx_main_v2 (ix3 b s o) r = ix3 b s r := by
  funext a; match a with | ⟨0, _⟩ => rfl | ⟨1, _⟩ => rfl | ⟨2, _⟩ => rfl
theorem r2 (r : Fin 64) : ridx_main_v2 (ix3 b s o) r = ix2 o r := by
  funext a; match a with | ⟨0, _⟩ => rfl | ⟨1, _⟩ => rfl
theorem l1 (r : Fin 64) (k : Fin 4096) : lidx_main_v1 (ix3 b s r) k = ix3 b s k := by
  funext a; match a with | ⟨0, _⟩ => rfl | ⟨1, _⟩ => rfl | ⟨2, _⟩ => rfl
theorem r1 (r : Fin 64) (k : Fin 4096) : ridx_main_v1 (ix3 b s r) k = ix2 r k := by
  funext a; match a with | ⟨0, _⟩ => rfl | ⟨1, _⟩ => rfl

/-- The reference's result at (b, s, o). -/
theorem reference_apply (x0 : S4x2048x4096.Idx → EReal) (x1 : S4096x4096.Idx → EReal) (x2 : S4096x64.Idx → EReal)
    (x3 : S64x4096.Idx → EReal) (x4 : S1000000.Idx → EReal) (x5 : IVec S2x1000000 32) :
    val_main_v26 (F := Ideal) x0 x1 x2 x3 x4 x5 (ix3 b s o)
      = (∑ d : Fin 4096, x0 (ix3 b s d) * x1 (ix2 o d))
        + 1 * ((∑ r : Fin 64, (∑ d : Fin 4096, x0 (ix3 b s d) * x3 (ix2 r d)) * x2 (ix2 o r))
          + ∑ d : Fin 4096, x0 (ix3 b s d) * val_main_v21 (F := Ideal) x4 x5 (ix2 o d)) := by
  rw [val_main_v26_apply, val_main_v0_apply, val_main_v25_apply, val_main_v24_apply, val_main_cst_3_apply,
    val_main_v23_apply, val_main_v2_apply, val_main_v22_apply]
  simp only [val_main_v1_apply, l0, r0, l22, r22, l2, r2, l1, r1, Ideal.addf_def, Ideal.mulf_def, Ideal.ofBits_def,
    Ideal.ofBits_one_f32]

/-- The operand the sparse entries are accumulated into is zero everywhere. -/
theorem sparse_zero (i : S4096x4096.Idx) : val_main_v3 (F := Ideal) i = 0 := by
  rw [val_main_v3_apply, val_main_cst_apply, Ideal.ofBits_def, Ideal.ofBits_zero_f32]

/-- S is real wherever the sparse values are: each of its entries is zero plus a finite sum of sparse values (those
    whose pair of index words names the entry), whatever the index words are. -/
theorem sparse_real (x4 : S1000000.Idx → EReal) (x5 : IVec S2x1000000 32) (h4 : ∀ n, ∃ t : ℝ, x4 n = t)
    (i : S4096x4096.Idx) (hz : val_main_v3 (F := Ideal) i = 0) : ∃ t : ℝ, val_main_v21 (F := Ideal) x4 x5 i = t := by
  unfold val_main_v21
  exact Cert.Spec.scatterAdd_real _ _ _ _ _ hz h4

end Cert.ReferenceIdeal.RefValue

end
-- ==== Proof.Finite.lean ====
/-
  The precondition read: every entry of every float input is a real number.
-/
import proofs.«117026_j83159156785478_1_alg».proof.Pre_finite_inputs
import proofs.«117026_j83159156785478_1_alg».proof.Proof.Gen.Pre_finite_inputs
import Idealize.ShloMosaic.PureOps.Ideal.Laws
import Idealize.ShloMosaic.Lib.ReduceAll

noncomputable section

namespace Cert.Pre_finite_inputs.Finite

open Idealize.ShloMosaic Cert.Pre_finite_inputs

/-- The scalar shape has exactly one index. -/
private instance subsingleton_scalar_idx : Subsingleton S_.Idx := ⟨fun a b => funext fun d => d.elim0⟩

/-- The f32 pattern with all exponent bits set and no fraction bit denotes +∞. -/
private theorem ofBits_inf : Ideal.ofBits .f32 0x7F800000#32 = (⊤ : EReal) := by
  simp [Ideal.ofBits, Ideal.ieee]

/-- An extended real whose absolute value max x (-x) is below +∞ is neither infinity, hence a real. -/
private theorem real_of_abs_lt_top (x : EReal) (hx : max x (-x) < ⊤) : ∃ r : ℝ, x = (r : EReal) := by
  induction x using EReal.rec with
  | bot => exact absurd hx (by simp)
  | top => exact absurd hx (by simp)
  | coe r => exact ⟨r, rfl⟩

/-- One conjunct of the predicate: where the conjunction over all entries of |a i| < +∞ is one, every entry is real. -/
private theorem real_of_all {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1) (i : s.Idx) : ∃ r : ℝ, a i = (r : EReal) := by
  have hi := Host.reduce_andi_all _ _ hr hu j e i
  have hlt : max (a i) (-(a i)) < (⊤ : EReal) := by
    have h1 : BitVec.ofBool (decide (max (a i) (-(a i)) < Ideal.ofBits .f32 0x7F800000#32)) = 1#1 := hi
    rw [ofBits_inf] at h1
    by_contra hn
    rw [decide_eq_false hn] at h1
    exact absurd h1 (by decide)
  exact real_of_abs_lt_top _ hlt

/-- Where the printed predicate is all ones, every entry of each of the five float inputs is a real number. -/
theorem real_of_fn (a0 : FVec Ideal S4x2048x4096 .f32) (a1 : FVec Ideal S4096x4096 .f32) (a2 : FVec Ideal S4096x64 .f32)
    (a3 : FVec Ideal S64x4096 .f32) (a4 : FVec Ideal S1000000 .f32) (a5 : IVec S2x1000000 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h (fun d => d.elim0)
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ _ e0, real_of_all a1 _ _ _ _ e1, real_of_all a2 _ _ _ _ e2,
    real_of_all a3 _ _ _ _ e3, real_of_all a4 _ _ _ _ e4⟩

end Cert.Pre_finite_inputs.Finite

end
-- ==== Proof.lean ====
/-
  The kernel computes  out = x · (W + S + A·B)ᵀ  with ONE combined [4096, 4096] weight: the host accumulates the sparse
  entries into a dense S and adds W; a first kernel region adds the rank-64 product A·B, 256 rows at a time; a second
  region multiplies the flattened activations [8192, 4096] by the combined weight's rows, a [1024, 512] block of the
  result at a time.  The reference computes the three terms apart:  x·Wᵀ + 1·((x·Bᵀ)·Aᵀ + x·Sᵀ).

  Read at the exact-real instance (a change of float format is the identity, a product into a zero accumulator a plain
  sum) both results at (b, s, o) are finite sums of products of the same entries, and they are equal by distributing
  x(b,s,d) over the three summands of the combined weight and exchanging the two sums of the low-rank term
  (`Cert.Spec.fused`).  Distributivity needs every entry real: the inputs are by the precondition, and S is because
  each of its entries is a finite sum of sparse values.  The idealization rewrote nothing, so `preserves` is `True`;
  the three frames are the generated ones.
-/
import proofs.«117026_j83159156785478_1_alg».proof.Defs
import proofs.«117026_j83159156785478_1_alg».proof.Proof.Gen.Kernel
import proofs.«117026_j83159156785478_1_alg».proof.Proof.Gen.Kernel.Skeleton
import proofs.«117026_j83159156785478_1_alg».proof.Proof.Gen.Kernel.Launch
import proofs.«117026_j83159156785478_1_alg».proof.Proof.Gen.Kernel.Points
import proofs.«117026_j83159156785478_1_alg».proof.Proof.Gen.Kernel.Frame
import proofs.«117026_j83159156785478_1_alg».proof.Proof.Gen.KernelIdeal
import proofs.«117026_j83159156785478_1_alg».proof.Proof.Gen.KernelIdeal.Skeleton
import proofs.«117026_j83159156785478_1_alg».proof.Proof.Gen.KernelIdeal.Launch
import proofs.«117026_j83159156785478_1_alg».proof.Proof.Gen.KernelIdeal.Points
import proofs.«117026_j83159156785478_1_alg».proof.Proof.Gen.KernelIdeal.Frame
import proofs.«117026_j83159156785478_1_alg».proof.Proof.Gen.ReferenceIdeal
import proofs.«117026_j83159156785478_1_alg».proof.Proof.Gen.ReferenceIdeal.Run
import proofs.«117026_j83159156785478_1_alg».proof.Proof.Gen.ReferenceIdeal.Read
import proofs.«117026_j83159156785478_1_alg».proof.Proof.Gen.Pre_finite_inputs
import proofs.«117026_j83159156785478_1_alg».proof.Proof.KernelRun
import proofs.«117026_j83159156785478_1_alg».proof.Proof.HostReads
import proofs.«117026_j83159156785478_1_alg».proof.Proof.RefValue
import proofs.«117026_j83159156785478_1_alg».proof.Proof.Finite
import proofs.«117026_j83159156785478_1_alg».proof.Proof.Spec
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: at (b, s, o) the fused sum against the combined weight equals the dense
    term plus one times the low-rank and sparse terms, all entries being real. -/
theorem algebraic : Cert.algebraic_KernelIdeal_ReferenceIdeal := by
  intro m ρ m' ρ' hpre hagree
  refine ⟨fun c => Cert.KernelIdeal.HostReads.aOut m ρ c, Cert.KernelIdeal.GenRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2,
    Cert.ReferenceIdeal.Read.val_main_v26_eq]
  funext i
  obtain ⟨b, s, o, rfl⟩ : ∃ (b : Fin 4) (s : Fin 2048) (o : Fin 4096), i = ix3 b s o := ⟨i 0, i 1, i 2, eq_ix3 i⟩
  obtain ⟨h0, h1, h2, h3, h4⟩ := Cert.Pre_finite_inputs.Finite.real_of_fn _ _ _ _ _ _ (hpre c)
  rw [Cert.ReferenceIdeal.RefValue.reference_apply]
  refine Eq.trans (Eq.symm ?_) (Cert.KernelIdeal.HostReads.result_apply m ρ c b s o).symm
  exact Cert.Spec.fused
    (fun d => Cert.KernelIdeal.HostReads.aX m c (ix3 b s d))
    (fun d => Cert.KernelIdeal.HostReads.aW m c (ix2 o d))
    (fun d => Cert.KernelIdeal.HostReads.aS m c (ix2 o d))
    (fun r => Cert.KernelIdeal.HostReads.aA m c (ix2 o r))
    (fun r d => Cert.KernelIdeal.HostReads.aB m c (ix2 r d))
    (fun d => h0 _) (fun d => h1 _)
    (fun d => Cert.ReferenceIdeal.RefValue.sparse_real _ _ h4 _ (Cert.ReferenceIdeal.RefValue.sparse_zero _))
    (fun r => h2 _) (fun r d => h3 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
